-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144 : Shape := ⟨1, ![262144]⟩
abbrev S1280 : Shape := ⟨1, ![1280]⟩
abbrev S16 : Shape := ⟨1, ![16]⟩
abbrev S16777216 : Shape := ⟨1, ![16777216]⟩
abbrev S_ : Shape := ⟨0, ![]⟩

class Facts : Prop where
  bcast_S_S262144 : S_.BroadcastsInDim S262144 (![] : Fin 0 → Fin S262144.rank)
  reducesTo_S262144_S_d0 : S262144.ReducesTo [0] S_
  h_S_ : 0 < S_.numel
  bcast_S_S1280 : S_.BroadcastsInDim S1280 (![] : Fin 0 → Fin S1280.rank)
  reducesTo_S1280_S_d0 : S1280.ReducesTo [0] S_
  bcast_S_S16 : S_.BroadcastsInDim S16 (![] : Fin 0 → Fin S16.rank)
  reducesTo_S16_S_d0 : S16.ReducesTo [0] S_
  bcast_S_S16777216 : S_.BroadcastsInDim S16777216 (![] : Fin 0 → Fin S16777216.rank)
  reducesTo_S16777216_S_d0 : S16777216.ReducesTo [0] S_

variable [Facts]

def fn_part2 {F : FTy → Type} [FloatOps F] (main_v27 : IVec S_ 1) (main_v32 : IVec S262144 1) (main_c_12 : IVec S_ 1) : IVec S_ 1 :=
  let main_v33 : IVec S_ 1 := (fun x v => Host.reduce IntOp.andi x v reducesTo_S262144_S_d0 h_S_) main_v32 main_c_12
  let main_v34 : IVec S_ 1 := andi main_v27 main_v33
  main_v34

def fn_part1 {F : FTy → Type} [FloatOps F] (main_arg4 : IVec S16777216 32) (main_arg5 : IVec S16777216 32) (main_arg6 : IVec S262144 32) (main_v13 : IVec S_ 1) (main_v15 : IVec S16777216 1) (main_c_5 : IVec S_ 32) : IVec S_ 1 :=
  let main_v16 : IVec S16777216 32 := broadcastInDim S16777216 ![] bcast_S_S16777216 main_c_5
  let main_v17 : IVec S16777216 1 := cmpi .slt main_arg4 main_v16
  let main_v18 : IVec S16777216 1 := andi main_v15 main_v17
  let main_c_6 : IVec S_ 1 := constantI S_ 1 1#1
  let main_v19 : IVec S_ 1 := (fun x v => Host.reduce IntOp.andi x v reducesTo_S16777216_S_d0 h_S_) main_v18 main_c_6
  let main_v20 : IVec S_ 1 := andi main_v13 main_v19
  let main_c_7 : IVec S_ 32 := constantI S_ 32 0#32
  let main_v21 : IVec S16777216 32 := broadcastInDim S16777216 ![] bcast_S_S16777216 main_c_7
  let main_v22 : IVec S16777216 1 := cmpi .sge main_arg5 main_v21
  let main_c_8 : IVec S_ 32 := constantI S_ 32 1280#32
  let main_v23 : IVec S16777216 32 := broadcastInDim S16777216 ![] bcast_S_S16777216 main_c_8
  let main_v24 : IVec S16777216 1 := cmpi .slt main_arg5 main_v23
  let main_v25 : IVec S16777216 1 := andi main_v22 main_v24
  let main_c_9 : IVec S_ 1 := constantI S_ 1 1#1
  let main_v26 : IVec S_ 1 := (fun x v => Host.reduce IntOp.andi x v reducesTo_S16777216_S_d0 h_S_) main_v25 main_c_9
  let main_v27 : IVec S_ 1 := andi main_v20 main_v26
  let main_c_10 : IVec S_ 32 := constantI S_ 32 0#32
  let main_v28 : IVec S262144 32 := broadcastInDim S262144 ![] bcast_S_S262144 main_c_10
  let main_v29 : IVec S262144 1 := cmpi .sge main_arg6 main_v28
  let main_c_11 : IVec S_ 32 := constantI S_ 32 16#32
  let main_v30 : IVec S262144 32 := broadcastInDim S262144 ![] bcast_S_S262144 main_c_11
  let main_v31 : IVec S262144 1 := cmpi .slt main_arg6 main_v30
  let main_v32 : IVec S262144 1 := andi main_v29 main_v31
  let main_c_12 : IVec S_ 1 := constantI S_ 1 1#1
  fn_part2 (F := F) main_v27 main_v32 main_c_12

def fn {F : FTy → Type} [FloatOps F] (main_arg0 : FVec F S262144 .f32) (main_arg1 : FVec F S1280 .f32) (main_arg2 : FVec F S16 .f32) (main_arg3 : IVec S16777216 32) (main_arg4 : IVec S16777216 32) (main_arg5 : IVec S16777216 32) (main_arg6 : IVec S262144 32) : IVec S_ 1 :=
  let main_v0 : FVec F S262144 .f32 := Host.absf main_arg0
  let main_cst : FVec F S_ .f32 := constant S_ .f32 0x7F800000#32
  let main_v1 : FVec F S262144 .f32 := broadcastInDim S262144 ![] bcast_S_S262144 main_cst
  let main_v2 : IVec S262144 1 := cmpf .olt main_v0 main_v1
  let main_c : IVec S_ 1 := constantI S_ 1 1#1
  let main_v3 : IVec S_ 1 := (fun x v => Host.reduce IntOp.andi x v reducesTo_S262144_S_d0 h_S_) main_v2 main_c
  let main_v4 : FVec F S1280 .f32 := Host.absf main_arg1
  let main_cst_0 : FVec F S_ .f32 := constant S_ .f32 0x7F800000#32
  let main_v5 : FVec F S1280 .f32 := broadcastInDim S1280 ![] bcast_S_S1280 main_cst_0
  let main_v6 : IVec S1280 1 := cmpf .olt main_v4 main_v5
  let main_c_1 : IVec S_ 1 := constantI S_ 1 1#1
  let main_v7 : IVec S_ 1 := (fun x v => Host.reduce IntOp.andi x v reducesTo_S1280_S_d0 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_c_4 : IVec S_ 32 := constantI S_ 32 0#32
  let main_v14 : IVec S16777216 32 := broadcastInDim S16777216 ![] bcast_S_S16777216 main_c_4
  let main_v15 : IVec S16777216 1 := cmpi .sge main_arg4 main_v14
  let main_c_5 : IVec S_ 32 := constantI S_ 32 262144#32
  fn_part1 (F := F) main_arg4 main_arg5 main_arg6 main_v13 main_v15 main_c_5
-- ==== Kernel.lean ====
abbrev S262144 : Shape := ⟨1, ![262144]⟩
abbrev S1280 : Shape := ⟨1, ![1280]⟩
abbrev S16 : Shape := ⟨1, ![16]⟩
abbrev S16777216 : Shape := ⟨1, ![16777216]⟩
abbrev S_ : Shape := ⟨0, ![]⟩
abbrev S16777216x1 : Shape := ⟨2, ![16777216, 1]⟩
abbrev S131072x128 : Shape := ⟨2, ![131072, 128]⟩
abbrev S8192x128 : Shape := ⟨2, ![8192, 128]⟩
abbrev S262144x1 : Shape := ⟨2, ![262144, 1]⟩

abbrev nBuf : Space → Nat
  | .hbm => 67
  | .vmem => 6
  | .smem => 0
  | _ => 0

abbrev bufTy : (tb : Table) → Fin (tcTables nBuf tb) → BufTy
  | .hbm, ⟨0, _⟩ => ⟨S262144, .f32⟩
  | .hbm, ⟨1, _⟩ => ⟨S1280, .f32⟩
  | .hbm, ⟨2, _⟩ => ⟨S16, .f32⟩
  | .hbm, ⟨3, _⟩ => ⟨S16777216, .i32⟩
  | .hbm, ⟨4, _⟩ => ⟨S16777216, .i32⟩
  | .hbm, ⟨5, _⟩ => ⟨S16777216, .i32⟩
  | .hbm, ⟨6, _⟩ => ⟨S262144, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S16777216, .i32⟩
  | .hbm, ⟨11, _⟩ => ⟨S16777216, .i32⟩
  | .hbm, ⟨12, _⟩ => ⟨S_, .i32⟩
  | .hbm, ⟨13, _⟩ => ⟨S16777216, .i32⟩
  | .hbm, ⟨14, _⟩ => ⟨S16777216, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S16777216, .i32⟩
  | .hbm, ⟨19, _⟩ => ⟨S16777216, .i32⟩
  | .hbm, ⟨20, _⟩ => ⟨S_, .i32⟩
  | .hbm, ⟨21, _⟩ => ⟨S16777216, .i32⟩
  | .hbm, ⟨22, _⟩ => ⟨S16777216, .i32⟩
  | .hbm, ⟨23, _⟩ => ⟨S_, .i32⟩
  | .hbm, ⟨24, _⟩ => ⟨S16777216, .i32⟩
  | .hbm, ⟨25, _⟩ => ⟨S16777216, .i1⟩
  | .hbm, ⟨26, _⟩ => ⟨S_, .i32⟩
  | .hbm, ⟨27, _⟩ => ⟨S16777216, .i32⟩
  | .hbm, ⟨28, _⟩ => ⟨S16777216, .i32⟩
  | .hbm, ⟨29, _⟩ => ⟨S16777216, .i32⟩
  | .hbm, ⟨30, _⟩ => ⟨S16777216x1, .i32⟩
  | .hbm, ⟨31, _⟩ => ⟨S16777216, .f32⟩
  | .hbm, ⟨32, _⟩ => ⟨S_, .i32⟩
  | .hbm, ⟨33, _⟩ => ⟨S16777216, .i32⟩
  | .hbm, ⟨34, _⟩ => ⟨S16777216, .i1⟩
  | .hbm, ⟨35, _⟩ => ⟨S_, .i32⟩
  | .hbm, ⟨36, _⟩ => ⟨S16777216, .i32⟩
  | .hbm, ⟨37, _⟩ => ⟨S16777216, .i32⟩
  | .hbm, ⟨38, _⟩ => ⟨S16777216, .i32⟩
  | .hbm, ⟨39, _⟩ => ⟨S16777216x1, .i32⟩
  | .hbm, ⟨40, _⟩ => ⟨S16777216, .f32⟩
  | .hbm, ⟨41, _⟩ => ⟨S131072x128, .f32⟩
  | .hbm, ⟨42, _⟩ => ⟨S131072x128, .f32⟩
  | .hbm, ⟨43, _⟩ => ⟨S131072x128, .f32⟩
  | .hbm, ⟨44, _⟩ => ⟨S16777216, .f32⟩
  | .hbm, ⟨45, _⟩ => ⟨S_, .i32⟩
  | .hbm, ⟨46, _⟩ => ⟨S_, .i32⟩
  | .hbm, ⟨47, _⟩ => ⟨S_, .i32⟩
  | .hbm, ⟨48, _⟩ => ⟨S262144, .i32⟩
  | .hbm, ⟨49, _⟩ => ⟨S262144, .i32⟩
  | .hbm, ⟨50, _⟩ => ⟨S_, .i32⟩
  | .hbm, ⟨51, _⟩ => ⟨S262144, .i32⟩
  | .hbm, ⟨52, _⟩ => ⟨S262144, .i32⟩
  | .hbm, ⟨53, _⟩ => ⟨S_, .i32⟩
  | .hbm, ⟨54, _⟩ => ⟨S262144, .i32⟩
  | .hbm, ⟨55, _⟩ => ⟨S262144, .i1⟩
  | .hbm, ⟨56, _⟩ => ⟨S_, .i32⟩
  | .hbm, ⟨57, _⟩ => ⟨S262144, .i32⟩
  | .hbm, ⟨58, _⟩ => ⟨S262144, .i32⟩
  | .hbm, ⟨59, _⟩ => ⟨S262144, .i32⟩
  | .hbm, ⟨60, _⟩ => ⟨S262144x1, .i32⟩
  | .hbm, ⟨61, _⟩ => ⟨S262144, .f32⟩
  | .hbm, ⟨62, _⟩ => ⟨S_, .f32⟩
  | .hbm, ⟨63, _⟩ => ⟨S262144, .f32⟩
  | .hbm, ⟨64, _⟩ => ⟨S16777216x1, .i32⟩
  | .hbm, ⟨65, _⟩ => ⟨S262144, .f32⟩
  | .hbm, ⟨66, _⟩ => ⟨S262144, .f32⟩
  | .local _ .vmem, ⟨0, _⟩ => ⟨S8192x128, .f32⟩
  | .local _ .vmem, ⟨1, _⟩ => ⟨S8192x128, .f32⟩
  | .local _ .vmem, ⟨2, _⟩ => ⟨S8192x128, .f32⟩
  | .local _ .vmem, ⟨3, _⟩ => ⟨S8192x128, .f32⟩
  | .local _ .vmem, ⟨4, _⟩ => ⟨S8192x128, .f32⟩
  | .local _ .vmem, ⟨5, _⟩ => ⟨S8192x128, .f32⟩
  | _, _ => ⟨S262144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_c_0 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_v0 : Ref sig .tc := ⟨.hbm, 14, rfl⟩
abbrev main_c_1 : Ref sig .tc := ⟨.hbm, 15, rfl⟩
abbrev main_c_2 : Ref sig .tc := ⟨.hbm, 16, rfl⟩
abbrev main_call1_v0 : Ref sig .tc := ⟨.hbm, 17, rfl⟩
abbrev main_call1_v1 : Ref sig .tc := ⟨.hbm, 18, rfl⟩
abbrev main_call1_v2 : Ref sig .tc := ⟨.hbm, 19, rfl⟩
abbrev main_call1_v3 : Ref sig .tc := ⟨.hbm, 20, rfl⟩
abbrev main_call1_v4 : Ref sig .tc := ⟨.hbm, 21, rfl⟩
abbrev main_v1 : Ref sig .tc := ⟨.hbm, 22, rfl⟩
abbrev main_c_3 : Ref sig .tc := ⟨.hbm, 23, rfl⟩
abbrev main_v2 : Ref sig .tc := ⟨.hbm, 24, rfl⟩
abbrev main_v3 : Ref sig .tc := ⟨.hbm, 25, rfl⟩
abbrev main_c_4 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_c_5 : Ref sig .tc := ⟨.hbm, 32, rfl⟩
abbrev main_v9 : Ref sig .tc := ⟨.hbm, 33, rfl⟩
abbrev main_v10 : Ref sig .tc := ⟨.hbm, 34, rfl⟩
abbrev main_c_6 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_c_7 : Ref sig .tc := ⟨.hbm, 45, rfl⟩
abbrev main_c_8 : Ref sig .tc := ⟨.hbm, 46, rfl⟩
abbrev main_call2_v0 : Ref sig .tc := ⟨.hbm, 47, rfl⟩
abbrev main_call2_v1 : Ref sig .tc := ⟨.hbm, 48, rfl⟩
abbrev main_call2_v2 : Ref sig .tc := ⟨.hbm, 49, rfl⟩
abbrev main_call2_v3 : Ref sig .tc := ⟨.hbm, 50, rfl⟩
abbrev main_call2_v4 : Ref sig .tc := ⟨.hbm, 51, rfl⟩
abbrev main_v20 : Ref sig .tc := ⟨.hbm, 52, rfl⟩
abbrev main_c_9 : Ref sig .tc := ⟨.hbm, 53, rfl⟩
abbrev main_v21 : Ref sig .tc := ⟨.hbm, 54, rfl⟩
abbrev main_v22 : Ref sig .tc := ⟨.hbm, 55, rfl⟩
abbrev main_c_10 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_cst : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8192x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S16777216 : S_.BroadcastsInDim S16777216 (![] : Fin 0 → Fin S16777216.rank)
  bcast_S16777216_S16777216x1_0 : S16777216.BroadcastsInDim S16777216x1 (![0] : Fin 1 → Fin S16777216x1.rank)
  shapeCasts_S16777216_S131072x128 : S16777216.ShapeCasts S131072x128
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  shapeCasts_S131072x128_S16777216 : S131072x128.ShapeCasts S16777216
  bcast_S_S262144 : S_.BroadcastsInDim S262144 (![] : Fin 0 → Fin S262144.rank)
  bcast_S262144_S262144x1_0 : S262144.BroadcastsInDim S262144x1 (![0] : Fin 1 → Fin S262144x1.rank)
  gather_S262144_S16777216x1_S16777216_n_0_n_n_0_1_1_wf : GatherDims.WF S262144 S16777216x1 S16777216 [] [0] [] [0] [] 1 ![1]
  gather_S1280_S16777216x1_S16777216_n_0_n_n_0_1_1_wf : GatherDims.WF S1280 S16777216x1 S16777216 [] [0] [] [0] [] 1 ![1]
  gather_S16_S262144x1_S262144_n_0_n_n_0_1_1_wf : GatherDims.WF S16 S262144x1 S262144 [] [0] [] [0] [] 1 ![1]
  scatter_S262144_S16777216x1_S16777216_n_0_0_1_wf : ScatterDims.WF S262144 S16777216x1 S16777216 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S131072x128.size a
  hwx0_0 : ∀ i : grid0.Coords, EltTy.bits .f32 = 32 ∨ (Rect.block (s := S131072x128) S8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S131072x128.size a
  hwx0_1 : ∀ i : grid0.Coords, EltTy.bits .f32 = 32 ∨ (Rect.block (s := S131072x128) S8192x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x128.size a ≤ S131072x128.size a
  hwx0_2 : ∀ i : grid0.Coords, EltTy.bits .f32 = 32 ∨ (Rect.block (s := S131072x128) S8192x128.size (cc0_transform_2 i) (hinb0_2 i)).WholeWords (EltTy.packing .f32)

variable [Facts₀]

def gather_S262144_S16777216x1_S16777216_n_0_n_n_0_1_1 : GatherDims S262144 S16777216x1 S16777216 where
  offsetDims := []
  collapsedSliceDims := [0]
  operandBatchingDims := []
  startIndicesBatchingDims := []
  startIndexMap := [0]
  indexVectorDim := 1
  sliceSizes := ![1]
  wf := gather_S262144_S16777216x1_S16777216_n_0_n_n_0_1_1_wf
def gather_S1280_S16777216x1_S16777216_n_0_n_n_0_1_1 : GatherDims S1280 S16777216x1 S16777216 where
  offsetDims := []
  collapsedSliceDims := [0]
  operandBatchingDims := []
  startIndicesBatchingDims := []
  startIndexMap := [0]
  indexVectorDim := 1
  sliceSizes := ![1]
  wf := gather_S1280_S16777216x1_S16777216_n_0_n_n_0_1_1_wf
def gather_S16_S262144x1_S262144_n_0_n_n_0_1_1 : GatherDims S16 S262144x1 S262144 where
  offsetDims := []
  collapsedSliceDims := [0]
  operandBatchingDims := []
  startIndicesBatchingDims := []
  startIndexMap := [0]
  indexVectorDim := 1
  sliceSizes := ![1]
  wf := gather_S16_S262144x1_S262144_n_0_n_n_0_1_1_wf
def scatter_S262144_S16777216x1_S16777216_n_0_0_1 : ScatterDims S262144 S16777216x1 S16777216 where
  updateWindowDims := []
  insertedWindowDims := [0]
  scatterDimsToOperandDims := [0]
  indexVectorDim := 1
  wf := scatter_S262144_S16777216x1_S16777216_n_0_0_1_wf

abbrev win0_0 : Pipeline.Window sig grid0 :=
  Pipeline.Window.ofSpec (Memref.whole main_v16) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S8192x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S8192x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S262144 : Shape := ⟨1, ![262144]⟩
abbrev S1280 : Shape := ⟨1, ![1280]⟩
abbrev S16 : Shape := ⟨1, ![16]⟩
abbrev S16777216 : Shape := ⟨1, ![16777216]⟩
abbrev S_ : Shape := ⟨0, ![]⟩
abbrev S16777216x1 : Shape := ⟨2, ![16777216, 1]⟩
abbrev S262144x1 : Shape := ⟨2, ![262144, 1]⟩

abbrev nBuf : Space → Nat
  | .hbm => 40
  | .vmem => 0
  | .smem => 0
  | _ => 0

abbrev bufTy : (tb : Table) → Fin (tcTables nBuf tb) → BufTy
  | .hbm, ⟨0, _⟩ => ⟨S262144, .f32⟩
  | .hbm, ⟨1, _⟩ => ⟨S1280, .f32⟩
  | .hbm, ⟨2, _⟩ => ⟨S16, .f32⟩
  | .hbm, ⟨3, _⟩ => ⟨S16777216, .i32⟩
  | .hbm, ⟨4, _⟩ => ⟨S16777216, .i32⟩
  | .hbm, ⟨5, _⟩ => ⟨S16777216, .i32⟩
  | .hbm, ⟨6, _⟩ => ⟨S262144, .i32⟩
  | .hbm, ⟨7, _⟩ => ⟨S_, .i32⟩
  | .hbm, ⟨8, _⟩ => ⟨S16777216, .i32⟩
  | .hbm, ⟨9, _⟩ => ⟨S16777216, .i1⟩
  | .hbm, ⟨10, _⟩ => ⟨S_, .i32⟩
  | .hbm, ⟨11, _⟩ => ⟨S16777216, .i32⟩
  | .hbm, ⟨12, _⟩ => ⟨S16777216, .i32⟩
  | .hbm, ⟨13, _⟩ => ⟨S16777216, .i32⟩
  | .hbm, ⟨14, _⟩ => ⟨S16777216x1, .i32⟩
  | .hbm, ⟨15, _⟩ => ⟨S16777216, .f32⟩
  | .hbm, ⟨16, _⟩ => ⟨S_, .i32⟩
  | .hbm, ⟨17, _⟩ => ⟨S16777216, .i32⟩
  | .hbm, ⟨18, _⟩ => ⟨S16777216, .i1⟩
  | .hbm, ⟨19, _⟩ => ⟨S_, .i32⟩
  | .hbm, ⟨20, _⟩ => ⟨S16777216, .i32⟩
  | .hbm, ⟨21, _⟩ => ⟨S16777216, .i32⟩
  | .hbm, ⟨22, _⟩ => ⟨S16777216, .i32⟩
  | .hbm, ⟨23, _⟩ => ⟨S16777216x1, .i32⟩
  | .hbm, ⟨24, _⟩ => ⟨S16777216, .f32⟩
  | .hbm, ⟨25, _⟩ => ⟨S16777216, .f32⟩
  | .hbm, ⟨26, _⟩ => ⟨S_, .f32⟩
  | .hbm, ⟨27, _⟩ => ⟨S262144, .f32⟩
  | .hbm, ⟨28, _⟩ => ⟨S16777216x1, .i32⟩
  | .hbm, ⟨29, _⟩ => ⟨S262144, .f32⟩
  | .hbm, ⟨30, _⟩ => ⟨S_, .i32⟩
  | .hbm, ⟨31, _⟩ => ⟨S262144, .i32⟩
  | .hbm, ⟨32, _⟩ => ⟨S262144, .i1⟩
  | .hbm, ⟨33, _⟩ => ⟨S_, .i32⟩
  | .hbm, ⟨34, _⟩ => ⟨S262144, .i32⟩
  | .hbm, ⟨35, _⟩ => ⟨S262144, .i32⟩
  | .hbm, ⟨36, _⟩ => ⟨S262144, .i32⟩
  | .hbm, ⟨37, _⟩ => ⟨S262144x1, .i32⟩
  | .hbm, ⟨38, _⟩ => ⟨S262144, .f32⟩
  | .hbm, ⟨39, _⟩ => ⟨S262144, .f32⟩
  | _, _ => ⟨S262144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_1 : Ref sig .tc := ⟨.hbm, 16, rfl⟩
abbrev main_v7 : Ref sig .tc := ⟨.hbm, 17, rfl⟩
abbrev main_v8 : Ref sig .tc := ⟨.hbm, 18, rfl⟩
abbrev main_c_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c_3 : Ref sig .tc := ⟨.hbm, 30, rfl⟩
abbrev main_v18 : Ref sig .tc := ⟨.hbm, 31, rfl⟩
abbrev main_v19 : Ref sig .tc := ⟨.hbm, 32, rfl⟩
abbrev main_c_4 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]

class Facts₀ : Prop where
  bcast_S_S16777216 : S_.BroadcastsInDim S16777216 (![] : Fin 0 → Fin S16777216.rank)
  bcast_S16777216_S16777216x1_0 : S16777216.BroadcastsInDim S16777216x1 (![0] : Fin 1 → Fin S16777216x1.rank)
  bcast_S_S262144 : S_.BroadcastsInDim S262144 (![] : Fin 0 → Fin S262144.rank)
  bcast_S262144_S262144x1_0 : S262144.BroadcastsInDim S262144x1 (![0] : Fin 1 → Fin S262144x1.rank)
  gather_S1280_S16777216x1_S16777216_n_0_n_n_0_1_1_wf : GatherDims.WF S1280 S16777216x1 S16777216 [] [0] [] [0] [] 1 ![1]
  gather_S262144_S16777216x1_S16777216_n_0_n_n_0_1_1_wf : GatherDims.WF S262144 S16777216x1 S16777216 [] [0] [] [0] [] 1 ![1]
  scatter_S262144_S16777216x1_S16777216_n_0_0_1_wf : ScatterDims.WF S262144 S16777216x1 S16777216 [] [0] [0] 1
  gather_S16_S262144x1_S262144_n_0_n_n_0_1_1_wf : GatherDims.WF S16 S262144x1 S262144 [] [0] [] [0] [] 1 ![1]

variable [Facts₀]

def gather_S1280_S16777216x1_S16777216_n_0_n_n_0_1_1 : GatherDims S1280 S16777216x1 S16777216 where
  offsetDims := []
  collapsedSliceDims := [0]
  operandBatchingDims := []
  startIndicesBatchingDims := []
  startIndexMap := [0]
  indexVectorDim := 1
  sliceSizes := ![1]
  wf := gather_S1280_S16777216x1_S16777216_n_0_n_n_0_1_1_wf
def gather_S262144_S16777216x1_S16777216_n_0_n_n_0_1_1 : GatherDims S262144 S16777216x1 S16777216 where
  offsetDims := []
  collapsedSliceDims := [0]
  operandBatchingDims := []
  startIndicesBatchingDims := []
  startIndexMap := [0]
  indexVectorDim := 1
  sliceSizes := ![1]
  wf := gather_S262144_S16777216x1_S16777216_n_0_n_n_0_1_1_wf
def scatter_S262144_S16777216x1_S16777216_n_0_0_1 : ScatterDims S262144 S16777216x1 S16777216 where
  updateWindowDims := []
  insertedWindowDims := [0]
  scatterDimsToOperandDims := [0]
  indexVectorDim := 1
  wf := scatter_S262144_S16777216x1_S16777216_n_0_0_1_wf
def gather_S16_S262144x1_S262144_n_0_n_n_0_1_1 : GatherDims S16 S262144x1 S262144 where
  offsetDims := []
  collapsedSliceDims := [0]
  operandBatchingDims := []
  startIndicesBatchingDims := []
  startIndexMap := [0]
  indexVectorDim := 1
  sliceSizes := ![1]
  wf := gather_S16_S262144x1_S262144_n_0_n_n_0_1_1_wf

class Facts : Prop extends Facts₀ where

variable [Facts]
-- ==== Proof.IndexRange.lean ====
/-
  The index ranges, read out of the precondition.

  The precondition is a conjunction of six `jnp.all`s: three say the float inputs are finite, three say that each
  of the gather index arrays (the column indices into `x`, the parameter indices into `Param_W`, the bias indices
  into `Param_b`) lies in the range of the array it indexes.  Only the last three are used by this certificate: an
  index word `w` with `0 ≤ w < n` (signed) is left unchanged by a clamp to `[0, n - 1]`.
-/
import proofs.«414514_j70016556859564_4_alg».proof.Pre_finite_inputs
import Idealize.ShloMosaic.Lib.ReduceAll
import Idealize.ShloMosaic.Lib.Affine

namespace Cert.IndexRange

open Idealize.ShloMosaic

/-- The rank-0 shape has one index. -/
instance : Subsingleton Cert.Pre_finite_inputs.S_.Idx := ⟨fun a b => funext fun d => d.elim0⟩

/-- A signed word in `[0, n)`: what the two comparisons of one `jnp.all((w >= 0) & (w < n))` say of an element. -/
def InRange (n w : BitVec 32) : Prop :=
  IntOp.cmpi .sge w 0#32 = 1#1 ∧ IntOp.cmpi .slt w n = 1#1

/-- A word in `[0, n)` is unchanged by the clamp to `[0, hi]` when `hi = n - 1` (as signed numbers):
    `min hi (max 0 w) = w`. -/
theorem clamp_of_inRange {n hi w : BitVec 32} (hn : hi.toInt + 1 = n.toInt) (hw : InRange n w) :
    IntOp.minsi hi (IntOp.maxsi 0#32 w) = w := by
  obtain ⟨h0, h1⟩ := hw
  rw [IntOp.cmpi_sge] at h0
  rw [IntOp.cmpi_slt] at h1
  have e0 : IntOp.maxsi 0#32 w = w := by
    unfold IntOp.maxsi
    rw [if_neg]
    rw [BitVec.slt_iff_toInt_lt]
    omega
  rw [e0]
  unfold IntOp.minsi
  rw [if_neg]
  rw [BitVec.slt_iff_toInt_lt]
  omega

variable {F : FTy → Type} [FloatOps F] [Cert.Pre_finite_inputs.Facts]

open Cert.Pre_finite_inputs in
/-- The precondition gives, element by element, the range of each of the three gather index arrays. -/
theorem ranges_of_pre (a0 : FVec F S262144 .f32) (a1 : FVec F S1280 .f32) (a2 : FVec F S16 .f32)
    (a3 a4 a5 : IVec S16777216 32) (a6 : IVec S262144 32)
    (h : Cert.Pre_finite_inputs.fn (F := F) a0 a1 a2 a3 a4 a5 a6 = fun _ => 1#1) :
    (∀ i, InRange 262144#32 (a4 i)) ∧ (∀ i, InRange 1280#32 (a5 i)) ∧ (∀ i, InRange 16#32 (a6 i)) := by
  have h0 := congrFun h (fun d => d.elim0)
  dsimp only [Cert.Pre_finite_inputs.fn, Cert.Pre_finite_inputs.fn_part1, Cert.Pre_finite_inputs.fn_part2, andi] at h0
  obtain ⟨h123, h6⟩ := IntOp.andi_eq_one.1 h0
  obtain ⟨h12, h5⟩ := IntOp.andi_eq_one.1 h123
  obtain ⟨_, h4⟩ := IntOp.andi_eq_one.1 h12
  refine ⟨fun i => ?_, fun i => ?_, fun i => ?_⟩
  · exact IntOp.andi_eq_one.1 (Host.reduce_andi_all _ _ _ _ _ h4 i)
  · exact IntOp.andi_eq_one.1 (Host.reduce_andi_all _ _ _ _ _ h5 i)
  · exact IntOp.andi_eq_one.1 (Host.reduce_andi_all _ _ _ _ _ h6 i)

end Cert.IndexRange
-- ==== Proof.HostTerms.lean ====
/-
  The two programs' results as functions of the seven inputs, and why they agree.

  Both programs compute, for every output position `r`,
      out[r] = Σ_{e : rows[e] = r} x[cols[e]] · W[params[e]]  +  b[bp[r]]
  with the same three gathers (negative indices first moved up by the extent, then the gather clamps), the same
  scatter-add over `rows` into zeros, and the same final sum.  They differ in three ways only:
    * the kernel clamps `cols`, `params` and `bp` to the range of the array they index before gathering — on
      indices already in range the clamp changes nothing;
    * the kernel reshapes the two gathered streams to 131072 × 128, multiplies there, and reshapes the product
      back — a reshape there and back is the identity, and the product is taken element by element either way;
    * the factors are in the other order — multiplication of extended reals is commutative.
-/
import proofs.«414514_j70016556859564_4_alg».proof.Proof.Gen.KernelIdeal
import proofs.«414514_j70016556859564_4_alg».proof.Proof.Gen.ReferenceIdeal
import proofs.«414514_j70016556859564_4_alg».proof.Proof.IndexRange
import Idealize.ShloMosaic.Lib.Pipeline.Value
import Idealize.ShloMosaic.PureOps.Ideal

noncomputable section

/-! ## The kernel's host operations, as functions -/

namespace Cert.KernelIdeal.Terms

open Cert.KernelIdeal Cert.KernelIdeal.Gen Idealize.ShloMosaic

variable {F : FTy → Type} [FloatOps F]

/-- `jnp.clip(idx, lo, hi)` of a per-edge index array: `min hi (max lo idx)`, element by element. -/
def clipEdge (lo hi : BitVec 32) (idx : IVec S16777216 32) : IVec S16777216 32 :=
  minsi (broadcastInDim S16777216 ![] bcast_S_S16777216 (constantI S_ 32 hi))
    (maxsi (broadcastInDim S16777216 ![] bcast_S_S16777216 (constantI S_ 32 lo)) idx)

/-- The same of a per-position index array. -/
def clipNode (lo hi : BitVec 32) (idx : IVec S262144 32) : IVec S262144 32 :=
  minsi (broadcastInDim S262144 ![] bcast_S_S262144 (constantI S_ 32 hi))
    (maxsi (broadcastInDim S262144 ![] bcast_S_S262144 (constantI S_ 32 lo)) idx)

/-- Indexing's treatment of a negative index: `idx + n` where `idx < 0`, else `idx`. -/
def wrapEdge (n : BitVec 32) (idx : IVec S16777216 32) : IVec S16777216 32 :=
  select (cmpi .slt idx (broadcastInDim S16777216 ![] bcast_S_S16777216 (constantI S_ 32 0#32)))
    (addi idx (broadcastInDim S16777216 ![] bcast_S_S16777216 (constantI S_ 32 n))) idx

def wrapNode (n : BitVec 32) (idx : IVec S262144 32) : IVec S262144 32 :=
  select (cmpi .slt idx (broadcastInDim S262144 ![] bcast_S_S262144 (constantI S_ 32 0#32)))
    (addi idx (broadcastInDim S262144 ![] bcast_S_S262144 (constantI S_ 32 n))) idx

/-- `x[cols]`: one entry of `x` per edge. -/
def gatherX (x : FVec F S262144 .f32) (cols : IVec S16777216 32) : FVec F S16777216 .f32 :=
  Host.gather gather_S262144_S16777216x1_S16777216_n_0_n_n_0_1_1 x
    (broadcastInDim S16777216x1 ![0] bcast_S16777216_S16777216x1_0 (wrapEdge 262144#32 cols))

/-- `W[params]`: one parameter per edge. -/
def gatherW (W : FVec F S1280 .f32) (params : IVec S16777216 32) : FVec F S16777216 .f32 :=
  Host.gather gather_S1280_S16777216x1_S16777216_n_0_n_n_0_1_1 W
    (broadcastInDim S16777216x1 ![0] bcast_S16777216_S16777216x1_0 (wrapEdge 1280#32 params))

/-- `b[bp]`: one bias per output position. -/
def gatherB (b : FVec F S16 .f32) (bp : IVec S262144 32) : FVec F S262144 .f32 :=
  Host.gather gather_S16_S262144x1_S262144_n_0_n_n_0_1_1 b
    (broadcastInDim S262144x1 ![0] bcast_S262144_S262144x1_0 (wrapNode 16#32 bp))

/-- The segment sum: the per-edge values added into zeros at the positions `rows` names. -/
def scatterRows (rows : IVec S16777216 32) (vals : FVec F S16777216 .f32) : FVec F S262144 .f32 :=
  Host.scatterAdd scatter_S262144_S16777216x1_S16777216_n_0_0_1
    (broadcastInDim S262144 ![] bcast_S_S262144 (constant S_ .f32 0x00000000#32))
    (broadcastInDim S16777216x1 ![0] bcast_S16777216_S16777216x1_0 rows) vals

/-- The first operand of the region: the gathered `x` stream, clamped indices, as a 131072 × 128 array. -/
def regionIn0 (x : FVec F S262144 .f32) (cols : IVec S16777216 32) : FVec F S131072x128 .f32 :=
  shapeCast S131072x128 (gatherX x (clipEdge 0#32 262143#32 cols)) shapeCasts_S16777216_S131072x128

/-- The second operand of the region: the gathered parameter stream, likewise. -/
def regionIn1 (W : FVec F S1280 .f32) (params : IVec S16777216 32) : FVec F S131072x128 .f32 :=
  shapeCast S131072x128 (gatherW W (clipEdge 0#32 1279#32 params)) shapeCasts_S16777216_S131072x128

/-- What the host operations after the region make of the region's output array `arr`. -/
def tailOut (b : FVec F S16 .f32) (rows : IVec S16777216 32) (bp : IVec S262144 32) (arr : FVec F S131072x128 .f32) :
    FVec F S262144 .f32 :=
  addf (scatterRows rows (shapeCast S16777216 arr shapeCasts_S131072x128_S16777216)) (gatherB b (clipNode 0#32 15#32 bp))

/-- The kernel's result from its seven inputs: the tail of the elementwise product of the region's two operands. -/
def kernelOut (x : FVec F S262144 .f32) (W : FVec F S1280 .f32) (b : FVec F S16 .f32) (rows cols params : IVec S16777216 32)
    (bp : IVec S262144 32) : FVec F S262144 .f32 :=
  tailOut b rows bp (mulf (regionIn0 x cols) (regionIn1 W params))

end Cert.KernelIdeal.Terms

/-! ## The reference's result, as a function -/

namespace Cert.ReferenceIdeal.Terms

open Cert.ReferenceIdeal Cert.ReferenceIdeal.Gen Idealize.ShloMosaic

variable {F : FTy → Type} [FloatOps F]

/-- The reference's result from its seven inputs, as its run states it. -/
def refOut (x : FVec F S262144 .f32) (W : FVec F S1280 .f32) (b : FVec F S16 .f32) (rows cols params : IVec S16777216 32)
    (bp : IVec S262144 32) : FVec F S262144 .f32 :=
  addf (Host.scatterAdd scatter_S262144_S16777216x1_S16777216_n_0_0_1 (broadcastInDim S262144 ![] bcast_S_S262144 (constant S_ .f32 0x00000000#32)) (broadcastInDim S16777216x1 ![0] bcast_S16777216_S16777216x1_0 rows) (mulf (Host.gather gather_S1280_S16777216x1_S16777216_n_0_n_n_0_1_1 W (broadcastInDim S16777216x1 ![0] bcast_S16777216_S16777216x1_0 (select (cmpi .slt params (broadcastInDim S16777216 ![] bcast_S_S16777216 (constantI S_ 32 0#32))) (addi params (broadcastInDim S16777216 ![] bcast_S_S16777216 (constantI S_ 32 1280#32))) params))) (Host.gather gather_S262144_S16777216x1_S16777216_n_0_n_n_0_1_1 x (broadcastInDim S16777216x1 ![0] bcast_S16777216_S16777216x1_0 (select (cmpi .slt cols (broadcastInDim S16777216 ![] bcast_S_S16777216 (constantI S_ 32 0#32))) (addi cols (broadcastInDim S16777216 ![] bcast_S_S16777216 (constantI S_ 32 262144#32))) cols))))) (Host.gather gather_S16_S262144x1_S262144_n_0_n_n_0_1_1 b (broadcastInDim S262144x1 ![0] bcast_S262144_S262144x1_0 (select (cmpi .slt bp (broadcastInDim S262144 ![] bcast_S_S262144 (constantI S_ 32 0#32))) (addi bp (broadcastInDim S262144 ![] bcast_S_S262144 (constantI S_ 32 16#32))) bp)))

end Cert.ReferenceIdeal.Terms

/-! ## The two agree on in-range indices -/

namespace Cert.Bridge

open Idealize.ShloMosaic Cert.IndexRange Cert.KernelIdeal.Terms

/-- A clamp to `[0, n - 1]` leaves an array of indices in `[0, n)` unchanged. -/
theorem clipEdge_of_inRange {n hi : BitVec 32} (hn : hi.toInt + 1 = n.toInt) (idx : IVec Cert.KernelIdeal.S16777216 32)
    (h : ∀ i, InRange n (idx i)) : clipEdge 0#32 hi idx = idx :=
  funext fun i => clamp_of_inRange hn (h i)

theorem clipNode_of_inRange {n hi : BitVec 32} (hn : hi.toInt + 1 = n.toInt) (idx : IVec Cert.KernelIdeal.S262144 32)
    (h : ∀ i, InRange n (idx i)) : clipNode 0#32 hi idx = idx :=
  funext fun i => clamp_of_inRange hn (h i)

/-- Reshape two streams to a rectangle, multiply there, reshape back: the elementwise product of the streams (the
    factors in the other order, which over the extended reals is the same product). -/
theorem reshape_product (A B : FVec Ideal Cert.KernelIdeal.S16777216 .f32) :
    shapeCast Cert.KernelIdeal.S16777216
      (mulf (shapeCast Cert.KernelIdeal.S131072x128 A Cert.KernelIdeal.Gen.shapeCasts_S16777216_S131072x128)
        (shapeCast Cert.KernelIdeal.S131072x128 B Cert.KernelIdeal.Gen.shapeCasts_S16777216_S131072x128))
      Cert.KernelIdeal.Gen.shapeCasts_S131072x128_S16777216 = mulf B A := by
  funext j
  have hA := congrFun (shapeCast_shapeCast A Cert.KernelIdeal.Gen.shapeCasts_S16777216_S131072x128 Cert.KernelIdeal.Gen.shapeCasts_S131072x128_S16777216) j
  have hB := congrFun (shapeCast_shapeCast B Cert.KernelIdeal.Gen.shapeCasts_S16777216_S131072x128 Cert.KernelIdeal.Gen.shapeCasts_S131072x128_S16777216) j
  show FloatOps.mulf (shapeCast Cert.KernelIdeal.S16777216 (shapeCast Cert.KernelIdeal.S131072x128 A _) _ j)
      (shapeCast Cert.KernelIdeal.S16777216 (shapeCast Cert.KernelIdeal.S131072x128 B _) _ j) = FloatOps.mulf (B j) (A j)
  rw [hA, hB, Ideal.mulf_def, Ideal.mulf_def, mul_comm]

/-- On index inputs in range, the kernel's result is the reference's. -/
theorem kernelOut_eq_refOut (x : FVec Ideal Cert.KernelIdeal.S262144 .f32) (W : FVec Ideal Cert.KernelIdeal.S1280 .f32)
    (b : FVec Ideal Cert.KernelIdeal.S16 .f32) (rows cols params : IVec Cert.KernelIdeal.S16777216 32)
    (bp : IVec Cert.KernelIdeal.S262144 32)
    (hc : ∀ i, InRange 262144#32 (cols i)) (hp : ∀ i, InRange 1280#32 (params i)) (hb : ∀ i, InRange 16#32 (bp i)) :
    kernelOut (F := Ideal) x W b rows cols params bp = Cert.ReferenceIdeal.Terms.refOut (F := Ideal) x W b rows cols params bp := by
  unfold kernelOut tailOut regionIn0 regionIn1
  rw [clipEdge_of_inRange (by decide) cols hc, clipEdge_of_inRange (by decide) params hp,
    clipNode_of_inRange (by decide) bp hb, reshape_product]
  rfl

end Cert.Bridge

end
-- ==== Proof.RegionProduct.lean ====
/-
  What the region leaves in its output array.

  The grid has 16 points; at point `t` each of the three windows is rows `8192·t … 8192·t + 8191` of a
  131072 × 128 array, and the body stores the elementwise product of the two input blocks.  So every point writes
  back the same rows of ONE whole-array function — the elementwise product of the two input arrays — and, the
  16 blocks tiling the rows, the output array ends holding that product.
-/
import proofs.«414514_j70016556859564_4_alg».proof.Proof.Gen.KernelIdeal.Frame
import Idealize.ShloMosaic.Lib.Pipeline.Value

set_option maxRecDepth 16384

noncomputable section

namespace Cert.KernelIdeal.Product

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

theorem offset_zero : (![0, 0] : Fin 2 → Nat) = fun _ => 0 := funext fun a => by fin_cases a <;> rfl

/-- The elementwise product of two 131072 × 128 arrays. -/
abbrev prod (a0 a1 : S131072x128.Idx → Elt F .f32) : S131072x128.Idx → Elt F .f32 :=
  fun i => FloatOps.mulf (a0 i) (a1 i)

/-- The body's stored value is the elementwise product of its two loaded blocks (its two shape casts are between
    equal shapes). -/
theorem payload_eq (x0 x1 : Vec F S8192x128 .f32) : k0_pay1 x0 x1 = mulf x0 x1 := by
  show mulf (shapeCast S8192x128 x0 shapeCasts_S8192x128_S8192x128) (shapeCast S8192x128 x1 shapeCasts_S8192x128_S8192x128) = _
  rw [shapeCast_self, shapeCast_self]

/-- The three index maps agree at every point: block row `t`, block column 0. -/
theorem index_facts : ∀ t : Fin cfg0.N, win0_0.index t (0 : Fin 2) = win0_2.index t (0 : Fin 2)
    ∧ win0_0.index t (1 : Fin 2) = win0_2.index t (1 : Fin 2)
    ∧ win0_1.index t (0 : Fin 2) = win0_2.index t (0 : Fin 2)
    ∧ win0_1.index t (1 : Fin 2) = win0_2.index t (1 : Fin 2)
    ∧ win0_2.index t (0 : Fin 2) ≤ 15
    ∧ win0_2.index t (1 : Fin 2) = 0 :=
  (by decide +kernel : ∀ t : Fin grid0.N, _)

/-- Every block row is some point's. -/
theorem index_onto : ∀ q : Fin 16, ∃ t : Fin cfg0.N, win0_2.index t = ![q.val, 0] :=
  (by decide +kernel : ∀ q : Fin 16, ∃ t : Fin grid0.N, win0_2.index t = ![q.val, 0])

/-- What point `t` writes back is block `t` of the product of the two input arrays as the region finds them. -/
theorem flushed_eq (c : Dev nD) (t : Fin cfg0.N) :
    (dats m 0 c).flushed 2 t = ((cfg0.win 2).blk t).view.read (Elt F) (prod (V m c main_v16) (V m c main_v17)) := by
  show (cfg0.win 2).cut (grid0.coords t) ((dats m 0 c).after 2 t) = _
  rw [after0_2]
  unfold out0_2
  rw [View.canon_unit_zero offset_zero]
  simp only [View.ld_unit_zero (S := S8192x128) offset_zero]
  rw [payload_eq]
  obtain ⟨e0, e1, e2, e3, e4, e5⟩ := index_facts t
  funext j
  show FloatOps.mulf (V m c main_v16 (((cfg0.win 0).blk t).view.emb j)) (V m c main_v17 (((cfg0.win 1).blk t).view.emb j)) = FloatOps.mulf (V m c main_v16 (((cfg0.win 2).blk t).view.emb j)) (V m c main_v17 (((cfg0.win 2).blk t).view.emb j))
  have h0 : ((cfg0.win 0).blk t).view.emb j = ((cfg0.win 2).blk t).view.emb j := by
    funext a; apply Fin.ext
    match a with
    | ⟨0, _⟩ => show win0_0.index t (0 : Fin 2) * 8192 + 1 * (j 0).val = win0_2.index t (0 : Fin 2) * 8192 + 1 * (j 0).val; omega
    | ⟨1, _⟩ => show win0_0.index t (1 : Fin 2) * 128 + 1 * (j 1).val = win0_2.index t (1 : Fin 2) * 128 + 1 * (j 1).val; omega
  have h1 : ((cfg0.win 1).blk t).view.emb j = ((cfg0.win 2).blk t).view.emb j := by
    funext a; apply Fin.ext
    match a with
    | ⟨0, _⟩ => show win0_1.index t (0 : Fin 2) * 8192 + 1 * (j 0).val = win0_2.index t (0 : Fin 2) * 8192 + 1 * (j 0).val; omega
    | ⟨1, _⟩ => show win0_1.index t (1 : Fin 2) * 128 + 1 * (j 1).val = win0_2.index t (1 : Fin 2) * 128 + 1 * (j 1).val; omega
  rw [h0, h1]

/-- An index of the output array is in point `t`'s block iff each coordinate is in the block's range on its axis. -/
theorem mem_block (t : Fin cfg0.N) (i : S131072x128.Idx) :
    i ∈ ((cfg0.win 2).blk t).view.set ↔ ∀ a : Fin 2, win0_2.index t a * S8192x128.size a ≤ (i a).val ∧ (i a).val < win0_2.index t a * S8192x128.size a + S8192x128.size a := by
  show i ∈ ((View.whole main_v18).slice (win0_2.rect t)).set ↔ _
  rw [View.set_slice_whole, Rect.mem_set_unit]
  exact Iff.rfl

/-- The 16 blocks cover the output array: row `r` is in the block of the point whose block row is `r / 8192`. -/
theorem covered (i : S131072x128.Idx) :
    ∃ t : Fin cfg0.N, (cfg0.win 2).flush t = true ∧ i ∈ ((cfg0.win 2).blk t).view.set := by
  have hi0 : (i 0).val < 131072 := (i 0).isLt
  have hi1 : (i 1).val < 128 := (i 1).isLt
  obtain ⟨t, ht⟩ := index_onto ⟨(i 0).val / 8192, by omega⟩
  have q0 : win0_2.index t (0 : Fin 2) = (i 0).val / 8192 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 8192 ≤ (i 0).val ∧ (i 0).val < win0_2.index t (0 : Fin 2) * 8192 + 8192; omega
  | ⟨1, _⟩ => show win0_2.index t (1 : Fin 2) * 128 ≤ (i 1).val ∧ (i 1).val < win0_2.index t (1 : Fin 2) * 128 + 128; omega

/-- The output array after the run is the product of the two input arrays as the region finds them. -/
theorem final (c : Dev nD) : (dats m 0 c).arrAt 2 cfg0.N = prod (V m c main_v16) (V m c main_v17) :=
  (dats m 0 c).arrAt_eq_of_cover 2 (prod (V m c main_v16) (V m c main_v17)) (fun t _ => flushed_eq m c t) covered

end Cert.KernelIdeal.Product

end
-- ==== Proof.KernelResult.lean ====
/-
  The kernel's run, with its result named.

  The generated frame run leaves the result buffer at "the host operations after the region, applied to the memory
  in which the region's arrays hold what the pipeline computed".  Here that is unfolded: the region's two operands
  are the reshaped gathered streams (the host operations before the region), its output array is their elementwise
  product (the 16 blocks cover it), and the operations after the region reshape that product back, scatter-add it
  over `rows` and add the gathered bias.
-/
import proofs.«414514_j70016556859564_4_alg».proof.Proof.RegionProduct
import proofs.«414514_j70016556859564_4_alg».proof.Proof.HostTerms
import Idealize.ShloMosaic.Lib.StableHlo.Run

set_option maxRecDepth 16384

noncomputable section

namespace Cert.KernelIdeal.Result

open Cert.KernelIdeal Cert.KernelIdeal.Gen Cert.KernelIdeal.Terms Idealize.ShloMosaic Idealize.ShloMosaic.TcCoe Idealize.SL.Sem
open Idealize.ShloMosaic.StableHlo
open Idealize.ShloMosaic.Pipeline (Dat)

variable {F : FTy → Type} [FloatOps F]
variable (m : (ℓ : Loc nD τ sig) → Buf (Elt F) ℓ) (ρ : Dev nD → PrngReg)

/-! ## The region's operands, as the host operations before it leave them -/

/-- The first operand: `x` gathered at the clamped column indices, as a 131072 × 128 array. -/
theorem entry_in0 (c : Dev nD) :
    (V m c main_v16 : S131072x128.Idx → Elt F .f32)
      = regionIn0 (m ((c : Thread nD τ).loc main_arg0)) (m ((c : Thread nD τ).loc main_arg4)) := by
  dsimp only [V, V0]
  simp only [hostOps0, hostOps0_1, hostOps0_2, hostOps0_3, hostOps0_4, List.flatten_cons, List.flatten_nil, List.append_nil,
    List.cons_append, List.nil_append]
  set_option maxHeartbeats 1000000 in after_results_simp
  rfl

/-- The second operand: the parameters gathered at the clamped parameter indices, likewise. -/
theorem entry_in1 (c : Dev nD) :
    (V m c main_v17 : S131072x128.Idx → Elt F .f32)
      = regionIn1 (m ((c : Thread nD τ).loc main_arg1)) (m ((c : Thread nD τ).loc main_arg5)) := by
  dsimp only [V, V0]
  simp only [hostOps0, hostOps0_1, hostOps0_2, hostOps0_3, hostOps0_4, List.flatten_cons, List.flatten_nil, List.append_nil,
    List.cons_append, List.nil_append]
  set_option maxHeartbeats 1000000 in after_results_simp
  rfl

/-! ## The memory the host operations after the region start from -/

/-- The contents of buffer `b` when the region is left: the region's arrays at what the pipeline computed, every
    other buffer as the region found it. -/
abbrev atExit (c : Dev nD) (b : Ref sig .tc) :=
  Pipeline.withArrays (cfgs 0).spec c (V0 m c) (fun w => (dats m 0 c).arrAt w (cfgs 0).N) (Proc.devRef .tc b)

/-- The region's output array holds the product of its two operands. -/
theorem exit_out (c : Dev nD) :
    atExit m c main_v18 = mulf (regionIn0 (m ((c : Thread nD τ).loc main_arg0)) (m ((c : Thread nD τ).loc main_arg4)))
      (regionIn1 (m ((c : Thread nD τ).loc main_arg1)) (m ((c : Thread nD τ).loc main_arg5))) := by
  refine (Pipeline.withArrays_arr spec0 launch0.win.arr_inj c _ _ 2).trans ?_
  refine (Cert.KernelIdeal.Product.final m c).trans ?_
  rw [entry_in0, entry_in1]
  rfl

/-- The bias table, the row indices and the bias indices are no array of the region: they are as launched. -/
theorem exit_arg2 (c : Dev nD) : atExit m c main_arg2 = m ((c : Thread nD τ).loc main_arg2) :=
  (Pipeline.withArrays_of_ne _ c (V0 m c) _ main_arg2 (by exact (by decide : ∀ w, Pipeline.arrRef spec0 w ≠ main_arg2))).trans
    (V_main_arg2 m c)
theorem exit_arg3 (c : Dev nD) : atExit m c main_arg3 = m ((c : Thread nD τ).loc main_arg3) :=
  (Pipeline.withArrays_of_ne _ c (V0 m c) _ main_arg3 (by exact (by decide : ∀ w, Pipeline.arrRef spec0 w ≠ main_arg3))).trans
    (V_main_arg3 m c)
theorem exit_arg6 (c : Dev nD) : atExit m c main_arg6 = m ((c : Thread nD τ).loc main_arg6) :=
  (Pipeline.withArrays_of_ne _ c (V0 m c) _ main_arg6 (by exact (by decide : ∀ w, Pipeline.arrRef spec0 w ≠ main_arg6))).trans
    (V_main_arg6 m c)

/-! ## The host operations after the region -/

/-- The host operations after the region, run from ANY memory `Vx`, leave in the result buffer the tail's function
    of what `Vx` holds in the bias table, the row indices, the bias indices and the region's output array. -/
theorem tail_of (Vx : Valuation τ sig (Elt F)) :
    StableHlo.after (List.flatten [hostOps1, hostOps1_1, hostOps1_2]) Vx (Proc.devRef .tc main_v31)
      = tailOut (Vx (Proc.devRef .tc main_arg2)) (Vx (Proc.devRef .tc main_arg3)) (Vx (Proc.devRef .tc main_arg6))
          (Vx (Proc.devRef .tc main_v18)) := by
  simp only [hostOps1, hostOps1_1, hostOps1_2, List.flatten_cons, List.flatten_nil, List.append_nil, List.cons_append,
    List.nil_append]
  set_option maxHeartbeats 1000000 in after_results_simp
  rfl

/-- The result buffer after the tail: the tail's function of those four buffers as the region left them. -/
theorem tail_eq (c : Dev nD) :
    Pipeline.afterTail₀ cfgs (dats m) 0 (V0 m) [hostOps1, hostOps1_1, hostOps1_2] c main_v31
      = tailOut (atExit m c main_arg2) (atExit m c main_arg3) (atExit m c main_arg6) (atExit m c main_v18) :=
  tail_of _

/-- The result buffer after the run is the kernel's function of the seven inputs as launched. -/
theorem result_eq (c : Dev nD) :
    Pipeline.afterTail₀ cfgs (dats m) 0 (V0 m) [hostOps1, hostOps1_1, hostOps1_2] c main_v31
      = kernelOut (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) := by
  rw [tail_eq, exit_arg2, exit_arg3, exit_arg6, exit_out]
  rfl

/-! ## The run -/

/-- Every weakly fair execution of the kernel's @main terminates with the result buffer at `kernelOut` of the inputs
    and the inputs unchanged. -/
theorem run : θ_run defs (onTc (τ := τ) (main (F := F))) ⟨m, fun _ => 0, ρ⟩ fun r => ∀ c : Dev nD,
      r.2.mem ((c.tc : Thread nD τ).loc main_v31)
        = kernelOut (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨((h c).2 main_v31 (Pipeline.mem_restRefs_of main_v31 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelIdeal.Result

end
-- ==== Proof.lean ====
/-
  A sparse matrix–vector product with a gathered bias,
      out[r] = Σ_{e : rows[e] = r} W[params[e]] · x[cols[e]]  +  b[bp[r]],
  computed two ways over the extended reals: the reference gathers, multiplies, segment-sums and adds the bias on
  the host; the kernel clamps the three gather index arrays to the range of the array they index, gathers on the
  host, multiplies the two gathered streams in a pallas_call over 16 blocks of a 131072 × 128 reshape of them, and
  finishes on the host as the reference does.

  The precondition says the float inputs are finite and the three gather index arrays are in range,
      0 ≤ cols < 262144,  0 ≤ params < 1280,  0 ≤ bp < 16.
  On such inputs the clamps change nothing (Proof/IndexRange.lean), the blocks of the pallas_call tile its output
  array, which therefore holds the elementwise product of its two operands (Proof/RegionProduct.lean), a reshape
  there and back is the identity and the product of extended reals is commutative (Proof/HostTerms.lean): the kernel's
  result (Proof/KernelResult.lean) is the reference's.  Finiteness is not used: no law applied needs it.  Outside
  the range the two differ: a column index of -1 reads `x[262143]` in the reference and `x[0]` in the kernel.

  The three frames are the programs' runs with the result forgotten; the idealization rewrote nothing, so
  `preserves` is `True`.
-/
import proofs.«414514_j70016556859564_4_alg».proof.Defs
import proofs.«414514_j70016556859564_4_alg».proof.Proof.Gen.Kernel
import proofs.«414514_j70016556859564_4_alg».proof.Proof.Gen.Kernel.Skeleton
import proofs.«414514_j70016556859564_4_alg».proof.Proof.Gen.Kernel.Launch
import proofs.«414514_j70016556859564_4_alg».proof.Proof.Gen.Kernel.Points
import proofs.«414514_j70016556859564_4_alg».proof.Proof.Gen.Kernel.Frame
import proofs.«414514_j70016556859564_4_alg».proof.Proof.Gen.KernelIdeal
import proofs.«414514_j70016556859564_4_alg».proof.Proof.Gen.KernelIdeal.Skeleton
import proofs.«414514_j70016556859564_4_alg».proof.Proof.Gen.KernelIdeal.Launch
import proofs.«414514_j70016556859564_4_alg».proof.Proof.Gen.KernelIdeal.Points
import proofs.«414514_j70016556859564_4_alg».proof.Proof.Gen.KernelIdeal.Frame
import proofs.«414514_j70016556859564_4_alg».proof.Proof.Gen.ReferenceIdeal
import proofs.«414514_j70016556859564_4_alg».proof.Proof.Gen.Pre_finite_inputs
import proofs.«414514_j70016556859564_4_alg».proof.Proof.Gen.ReferenceIdeal.Run
import proofs.«414514_j70016556859564_4_alg».proof.Proof.IndexRange
import proofs.«414514_j70016556859564_4_alg».proof.Proof.HostTerms
import proofs.«414514_j70016556859564_4_alg».proof.Proof.KernelResult
import Idealize.ShloMosaic.Adequacy
import Idealize.ShloMosaic.Init

noncomputable section

namespace Cert.Proof

open Idealize.ShloMosaic Idealize.SL.Sem

/-- The kernel as printed terminates without a fault and keeps its arguments. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the seven inputs, with the gather indices in range, both programs end with the same
    result: the kernel's function of the inputs, which on such inputs is the reference's. -/
theorem algebraic : Cert.algebraic_KernelIdeal_ReferenceIdeal := by
  intro m ρ m' ρ' hpre hagree
  refine ⟨_, Cert.KernelIdeal.Result.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6⟩ := hagree c
  rw [e0, e1, e2, e3, e4, e5, e6]
  obtain ⟨hc, hp, hb⟩ := Cert.IndexRange.ranges_of_pre _ _ _ _ _ _ _ (hpre c)
  exact (Cert.Bridge.kernelOut_eq_refOut _ _ _ _ _ _ _ hc hp hb).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
